-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x96 : Shape := ⟨2, ![64, 96]⟩
abbrev S96 : Shape := ⟨1, ![96]⟩
abbrev S96x64 : Shape := ⟨2, ![96, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x96 .f32) (main_arg3 : FVec F S96 .f32) (main_arg4 : FVec F S96x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x96 .f32 := Host.absf main_arg2
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x64 .f32 := Host.absf main_arg4
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x96 : Shape := ⟨2, ![64, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S5000x64 : Shape := ⟨2, ![5000, 64]⟩
abbrev S5000x96 : Shape := ⟨2, ![5000, 96]⟩
abbrev S800000x96 : Shape := ⟨2, ![800000, 96]⟩
abbrev S50000x1 : Shape := ⟨2, ![50000, 1]⟩
abbrev S1x96 : Shape := ⟨2, ![1, 96]⟩
abbrev S800000x64 : Shape := ⟨2, ![800000, 64]⟩
abbrev S1x64 : Shape := ⟨2, ![1, 64]⟩

abbrev nBuf : Space → Nat
  | .hbm => 85
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x96, .f32⟩
  | .hbm, ⟨3, _⟩ => ⟨S96, .f32⟩
  | .hbm, ⟨4, _⟩ => ⟨S96x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S50000x96, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x96, .f32⟩
  | .hbm, ⟨49, _⟩ => ⟨S800000x1, .f32⟩
  | .hbm, ⟨50, _⟩ => ⟨S800000x96, .f32⟩
  | .hbm, ⟨51, _⟩ => ⟨S800000x96, .f32⟩
  | .hbm, ⟨52, _⟩ => ⟨S_, .f32⟩
  | .hbm, ⟨53, _⟩ => ⟨S50000x96, .f32⟩
  | .hbm, ⟨54, _⟩ => ⟨S800000x1, .i32⟩
  | .hbm, ⟨55, _⟩ => ⟨S50000x96, .f32⟩
  | .hbm, ⟨56, _⟩ => ⟨S50000, .f32⟩
  | .hbm, ⟨57, _⟩ => ⟨S50000x1, .f32⟩
  | .hbm, ⟨58, _⟩ => ⟨S50000x96, .f32⟩
  | .hbm, ⟨59, _⟩ => ⟨S50000x96, .f32⟩
  | .hbm, ⟨60, _⟩ => ⟨S1x96, .f32⟩
  | .hbm, ⟨61, _⟩ => ⟨S50000x96, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x1, .f32⟩
  | .hbm, ⟨73, _⟩ => ⟨S800000x64, .f32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S50000, .f32⟩
  | .hbm, ⟨80, _⟩ => ⟨S50000x1, .f32⟩
  | .hbm, ⟨81, _⟩ => ⟨S50000x64, .f32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S1x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S96x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  inb_S5000x96_S5000x96_0_0 : ∀ a, (![0, 0] : Fin 2 → Nat) a + S5000x96.size a ≤ S5000x96.size a
  h_S5000x96 : 0 < S5000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x64_S96x64_0_0 : ∀ a, (![0, 0] : Fin 2 → Nat) a + S96x64.size a ≤ S96x64.size a
  h_S96x64 : 0 < S96x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x96_S5000x96_1_0_0_1_n_n_wf : DotDims.WF S5000x64 S64x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x64_S5000x64_1_0_0_1_n_n_wf : DotDims.WF S5000x96 S96x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x64.size a ≤ S96x64.size a
  hwx2_1 : ∀ i : grid2.Coords, EltTy.bits .f32 = 32 ∨ (Rect.block (s := S96x64) S96x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x96 : Shape := ⟨2, ![64, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S800000x64 : Shape := ⟨2, ![800000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x64, .f32⟩
  | 1 => ⟨S2x800000, .i32⟩
  | 2 => ⟨S64x96, .f32⟩
  | 3 => ⟨S96, .f32⟩
  | 4 => ⟨S96x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x96, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x96, .f32⟩
  | 49 => ⟨S800000x1, .f32⟩
  | 50 => ⟨S800000x96, .f32⟩
  | 51 => ⟨S800000x96, .f32⟩
  | 52 => ⟨S_, .f32⟩
  | 53 => ⟨S50000x96, .f32⟩
  | 54 => ⟨S800000x1, .i32⟩
  | 55 => ⟨S50000x96, .f32⟩
  | 56 => ⟨S50000, .f32⟩
  | 57 => ⟨S50000x1, .f32⟩
  | 58 => ⟨S50000x96, .f32⟩
  | 59 => ⟨S50000x96, .f32⟩
  | 60 => ⟨S50000x96, .f32⟩
  | 61 => ⟨S1x96, .f32⟩
  | 62 => ⟨S50000x96, .f32⟩
  | 63 => ⟨S50000x96, .f32⟩
  | 64 => ⟨S_, .f32⟩
  | 65 => ⟨S50000x96, .f32⟩
  | 66 => ⟨S50000x96, .f32⟩
  | 67 => ⟨S50000x64, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x1, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000, .f32⟩
  | 114 => ⟨S50000x1, .f32⟩
  | 115 => ⟨S50000x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S_, .f32⟩
  | 127 => ⟨S50000x64, .f32⟩
  | _ => ⟨S50000x64, .f32⟩

abbrev hbmTy0_1 (i : Nat) : BufTy := match i % 128 with
  | 0 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x96_S50000x96_1_0_0_1_n_n_wf : DotDims.WF S50000x64 S64x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x64_S50000x64_1_0_0_1_n_n_wf : DotDims.WF S50000x96 S96x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x96_S50000x96_1_0_0_1_n_n : DotDims S50000x64 S64x96 S50000x96 where
  lhsContracting := [1]
  rhsContracting := [0]
  lhsNonContracting := [0]
  rhsNonContracting := [1]
  lhsBatch := []
  rhsBatch := []
  wf := dot_S50000x64_S64x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KHost.lean ====
/-
  The host side of the idealized kernel program, between its four launches.

  From the edge list e (two rows of 800000 node numbers: sources, then targets) the program computes, once, the
  normalisation of a graph convolution with self loops: the degree  deg n = 1 + #{edges into n},  dis = deg^(-1/2), and
  per edge the weight  norm = dis[src] · dis[dst]  (a negative node number is first shifted up by the node count, as
  indexing from the end is).  Around each pair of launches it then gathers the transformed features h at the edge
  sources, scales each gathered row by its edge's weight and adds it into the row of its target (agg), scales h row by
  row by dis² (the self-loop term), and lays the bias out as a row.

  Here each of those values is named as a function of the arrays it is computed from, and the contents of the
  program's buffers at every boundary between a stretch of host operations and a launch are read back to those names:
  the buffers a stretch or a launch does not write keep what they held.
-/
import proofs.«166711_j87333864997320_1_alg».proof.Proof.Gen.KernelIdeal.Frame
import Idealize.ShloMosaic.PureOps.Ideal
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Facts₀

/-! ## The values, named -/

/-- Row 0 of the edge list: the edges' source nodes. -/
def srcRow (e : IVec S2x800000 32) : IVec S800000 32 :=
  shapeCast S800000 (extractStridedSlice S1x800000 ![0, 0] e slices_S2x800000_S1x800000_0_0) shapeCasts_S1x800000_S800000

/-- Row 1 of the edge list: the edges' target nodes. -/
def dstRow (e : IVec S2x800000 32) : IVec S800000 32 :=
  shapeCast S800000 (extractStridedSlice S1x800000 ![1, 0] e slices_S2x800000_S1x800000_1_0) shapeCasts_S1x800000_S800000

/-- Node numbers as gather indices: a negative number is shifted up by 50000, and the vector becomes a column. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- deg^(-1/2), where deg n is one plus the number of edges whose target is n. -/
def dis (d : IVec S800000 32) : FVec Ideal S50000 .f32 :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 d)
      (broadcastInDim S800000 ![] bcast_S_S800000 (constant S_ .f32 0x3F800000#32)))
    (broadcastInDim S50000 ![] bcast_S_S50000 (constant S_ .f32 0x3F800000#32)))

/-- The edge weights dis[src] · dis[dst]. -/
def norm (s d : IVec S800000 32) (ds : FVec Ideal S50000 .f32) :
    FVec Ideal S800000 .f32 :=
  mulf (Host.gather gather_S50000_S800000x1_S800000_n_0_n_n_0_1_1 ds (wrapIdx s))
    (Host.gather gather_S50000_S800000x1_S800000_n_0_n_n_0_1_1 ds (wrapIdx d))

/-- The aggregated messages of the first layer: rows of h gathered at the sources, scaled by the edge weights, added
    into the rows of the targets. -/
def agg96 (s d : IVec S800000 32) (nm : FVec Ideal S800000 .f32)
    (h : FVec Ideal S50000x96 .f32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 d)
    (mulf (Host.gather gather_S50000x96_S800000x1_S800000x96_1_0_n_n_0_1_196 h (wrapIdx s))
      (broadcastInDim S800000x96 ![0, 1] bcast_S800000x1_S800000x96_0_1 (broadcastInDim S800000x1 ![0] bcast_S800000_S800000x1_0 nm)))

/-- The self-loop term of the first layer: row n of h scaled by dis n squared. -/
def self96 (ds : FVec Ideal S50000 .f32) (h : FVec Ideal S50000x96 .f32) :
    FVec Ideal S50000x96 .f32 :=
  mulf h (broadcastInDim S50000x96 ![0, 1] bcast_S50000x1_S50000x96_0_1 (broadcastInDim S50000x1 ![0] bcast_S50000_S50000x1_0 (mulf ds ds)))

/-- The first layer's bias as a row. -/
def biasRow96 (b : FVec Ideal S96 .f32) : FVec Ideal S1x96 .f32 :=
  shapeCast S1x96 b shapeCasts_S96_S1x96

/-- The aggregated messages of the second layer. -/
def agg64 (s d : IVec S800000 32) (nm : FVec Ideal S800000 .f32)
    (h : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (mulf (Host.gather gather_S50000x64_S800000x1_S800000x64_1_0_n_n_0_1_164 h (wrapIdx s))
      (broadcastInDim S800000x64 ![0, 1] bcast_S800000x1_S800000x64_0_1 (broadcastInDim S800000x1 ![0] bcast_S800000_S800000x1_0 nm)))

/-- The self-loop term of the second layer. -/
def self64 (ds : FVec Ideal S50000 .f32) (h : FVec Ideal S50000x64 .f32) :
    FVec Ideal S50000x64 .f32 :=
  mulf h (broadcastInDim S50000x64 ![0, 1] bcast_S50000x1_S50000x64_0_1 (broadcastInDim S50000x1 ![0] bcast_S50000_S50000x1_0 (mulf ds ds)))

/-- The second layer's bias as a row. -/
def biasRow64 (b : FVec Ideal S64 .f32) : FVec Ideal S1x64 .f32 :=
  shapeCast S1x64 b shapeCasts_S64_S1x64

/-! ## The buffers at the first launch's entry -/

open Cert.KernelIdeal.Gen

variable (m : (ℓ : Loc nD τ sig) → Buf (Elt Ideal) ℓ) (ρ : Dev nD → PrngReg) (c : Dev nD)

theorem W1_v1 : W1 m ρ c (Proc.devRef .tc main_v1) = srcRow (m ((c : Thread nD τ).loc main_arg1)) := by
  show StableHlo.after hostOps0 (W0 m ρ c) (Proc.devRef .tc main_v1) = _
  dsimp only [hostOps0]; after_results_simp; rfl

theorem W1_v3 : W1 m ρ c (Proc.devRef .tc main_v3) = dstRow (m ((c : Thread nD τ).loc main_arg1)) := by
  show StableHlo.after hostOps0 (W0 m ρ c) (Proc.devRef .tc main_v3) = _
  dsimp only [hostOps0]; after_results_simp; rfl

theorem W1_v10 : W1 m ρ c (Proc.devRef .tc main_v10) = dis (dstRow (m ((c : Thread nD τ).loc main_arg1))) := by
  show StableHlo.after hostOps0 (W0 m ρ c) (Proc.devRef .tc main_v10) = _
  dsimp only [hostOps0]; after_results_simp; rfl

theorem W1_v25 : W1 m ρ c (Proc.devRef .tc main_v25)
    = norm (srcRow (m ((c : Thread nD τ).loc main_arg1))) (dstRow (m ((c : Thread nD τ).loc main_arg1)))
        (dis (dstRow (m ((c : Thread nD τ).loc main_arg1)))) := by
  show StableHlo.after hostOps0 (W0 m ρ c) (Proc.devRef .tc main_v25) = _
  dsimp only [hostOps0]; after_results_simp; rfl

theorem W1_arg0 : W1 m ρ c (Proc.devRef .tc main_arg0) = m ((c : Thread nD τ).loc main_arg0) := by
  show StableHlo.after hostOps0 (W0 m ρ c) (Proc.devRef .tc main_arg0) = _
  dsimp only [hostOps0]; after_results_simp
theorem W1_arg2 : W1 m ρ c (Proc.devRef .tc main_arg2) = m ((c : Thread nD τ).loc main_arg2) := by
  show StableHlo.after hostOps0 (W0 m ρ c) (Proc.devRef .tc main_arg2) = _
  dsimp only [hostOps0]; after_results_simp
theorem W1_arg3 : W1 m ρ c (Proc.devRef .tc main_arg3) = m ((c : Thread nD τ).loc main_arg3) := by
  show StableHlo.after hostOps0 (W0 m ρ c) (Proc.devRef .tc main_arg3) = _
  dsimp only [hostOps0]; after_results_simp
theorem W1_arg4 : W1 m ρ c (Proc.devRef .tc main_arg4) = m ((c : Thread nD τ).loc main_arg4) := by
  show StableHlo.after hostOps0 (W0 m ρ c) (Proc.devRef .tc main_arg4) = _
  dsimp only [hostOps0]; after_results_simp
theorem W1_arg5 : W1 m ρ c (Proc.devRef .tc main_arg5) = m ((c : Thread nD τ).loc main_arg5) := by
  show StableHlo.after hostOps0 (W0 m ρ c) (Proc.devRef .tc main_arg5) = _
  dsimp only [hostOps0]; after_results_simp

/-! ## Between the first launch and the second -/

theorem W2_v1 : W2 m ρ c (Proc.devRef .tc main_v1) = srcRow (m ((c : Thread nD τ).loc main_arg1)) :=
  (W2_of_ne m ρ c main_v1 (by decide)).trans (W1_v1 m ρ c)
theorem W2_v3 : W2 m ρ c (Proc.devRef .tc main_v3) = dstRow (m ((c : Thread nD τ).loc main_arg1)) :=
  (W2_of_ne m ρ c main_v3 (by decide)).trans (W1_v3 m ρ c)
theorem W2_v10 : W2 m ρ c (Proc.devRef .tc main_v10) = dis (dstRow (m ((c : Thread nD τ).loc main_arg1))) :=
  (W2_of_ne m ρ c main_v10 (by decide)).trans (W1_v10 m ρ c)
theorem W2_v25 : W2 m ρ c (Proc.devRef .tc main_v25)
    = norm (srcRow (m ((c : Thread nD τ).loc main_arg1))) (dstRow (m ((c : Thread nD τ).loc main_arg1)))
        (dis (dstRow (m ((c : Thread nD τ).loc main_arg1)))) :=
  (W2_of_ne m ρ c main_v25 (by decide)).trans (W1_v25 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-- The aggregated messages at the second launch's entry, over what the first launch left in the feature array. -/
theorem W3_v39 : W3 m ρ c (Proc.devRef .tc main_v39)
    = agg96 (W2 m ρ c (Proc.devRef .tc main_v1)) (W2 m ρ c (Proc.devRef .tc main_v3)) (W2 m ρ c (Proc.devRef .tc main_v25))
        (W2 m ρ c (Proc.devRef .tc main_v26)) := by
  show StableHlo.after hostOps1 (W2 m ρ c) (Proc.devRef .tc main_v39) = _
  dsimp only [hostOps1]; after_results_simp; rfl
theorem W3_v43 : W3 m ρ c (Proc.devRef .tc main_v43)
    = self96 (W2 m ρ c (Proc.devRef .tc main_v10)) (W2 m ρ c (Proc.devRef .tc main_v26)) := by
  show StableHlo.after hostOps1 (W2 m ρ c) (Proc.devRef .tc main_v43) = _
  dsimp only [hostOps1]; after_results_simp; rfl
theorem W3_v44 : W3 m ρ c (Proc.devRef .tc main_v44) = biasRow96 (W2 m ρ c (Proc.devRef .tc main_arg3)) := by
  show StableHlo.after hostOps1 (W2 m ρ c) (Proc.devRef .tc main_v44) = _
  dsimp only [hostOps1]; after_results_simp; rfl

theorem W3_v1 : W3 m ρ c (Proc.devRef .tc main_v1) = W2 m ρ c (Proc.devRef .tc main_v1) := by
  show StableHlo.after hostOps1 (W2 m ρ c) (Proc.devRef .tc main_v1) = _
  dsimp only [hostOps1]; after_results_simp
theorem W3_v3 : W3 m ρ c (Proc.devRef .tc main_v3) = W2 m ρ c (Proc.devRef .tc main_v3) := by
  show StableHlo.after hostOps1 (W2 m ρ c) (Proc.devRef .tc main_v3) = _
  dsimp only [hostOps1]; after_results_simp
theorem W3_v10 : W3 m ρ c (Proc.devRef .tc main_v10) = W2 m ρ c (Proc.devRef .tc main_v10) := by
  show StableHlo.after hostOps1 (W2 m ρ c) (Proc.devRef .tc main_v10) = _
  dsimp only [hostOps1]; after_results_simp
theorem W3_v25 : W3 m ρ c (Proc.devRef .tc main_v25) = W2 m ρ c (Proc.devRef .tc main_v25) := by
  show StableHlo.after hostOps1 (W2 m ρ c) (Proc.devRef .tc main_v25) = _
  dsimp only [hostOps1]; after_results_simp
theorem W3_arg4 : W3 m ρ c (Proc.devRef .tc main_arg4) = W2 m ρ c (Proc.devRef .tc main_arg4) := by
  show StableHlo.after hostOps1 (W2 m ρ c) (Proc.devRef .tc main_arg4) = _
  dsimp only [hostOps1]; after_results_simp
theorem W3_arg5 : W3 m ρ c (Proc.devRef .tc main_arg5) = W2 m ρ c (Proc.devRef .tc main_arg5) := by
  show StableHlo.after hostOps1 (W2 m ρ c) (Proc.devRef .tc main_arg5) = _
  dsimp only [hostOps1]; after_results_simp

/-! ## Through the second and third launches -/

theorem W4_arg4 : W4 m ρ c (Proc.devRef .tc main_arg4) = m ((c : Thread nD τ).loc main_arg4) :=
  (W4_of_ne m ρ c main_arg4 (by decide)).trans ((W3_arg4 m ρ c).trans (W2_arg4 m ρ c))

theorem W5_v1 : W5 m ρ c (Proc.devRef .tc main_v1) = srcRow (m ((c : Thread nD τ).loc main_arg1)) :=
  (W5_of_ne m ρ c main_v1 (by decide)).trans ((W4_of_ne m ρ c main_v1 (by decide)).trans ((W3_v1 m ρ c).trans (W2_v1 m ρ c)))
theorem W5_v3 : W5 m ρ c (Proc.devRef .tc main_v3) = dstRow (m ((c : Thread nD τ).loc main_arg1)) :=
  (W5_of_ne m ρ c main_v3 (by decide)).trans ((W4_of_ne m ρ c main_v3 (by decide)).trans ((W3_v3 m ρ c).trans (W2_v3 m ρ c)))
theorem W5_v10 : W5 m ρ c (Proc.devRef .tc main_v10) = dis (dstRow (m ((c : Thread nD τ).loc main_arg1))) :=
  (W5_of_ne m ρ c main_v10 (by decide)).trans ((W4_of_ne m ρ c main_v10 (by decide)).trans ((W3_v10 m ρ c).trans (W2_v10 m ρ c)))
theorem W5_v25 : W5 m ρ c (Proc.devRef .tc main_v25)
    = norm (srcRow (m ((c : Thread nD τ).loc main_arg1))) (dstRow (m ((c : Thread nD τ).loc main_arg1)))
        (dis (dstRow (m ((c : Thread nD τ).loc main_arg1)))) :=
  (W5_of_ne m ρ c main_v25 (by decide)).trans ((W4_of_ne m ρ c main_v25 (by decide)).trans ((W3_v25 m ρ c).trans (W2_v25 m ρ c)))
theorem W5_arg5 : W5 m ρ c (Proc.devRef .tc main_arg5) = m ((c : Thread nD τ).loc main_arg5) :=
  (W5_of_ne m ρ c main_arg5 (by decide)).trans ((W4_of_ne m ρ c main_arg5 (by decide)).trans ((W3_arg5 m ρ c).trans (W2_arg5 m ρ c)))

/-! ## Between the third launch and the last -/

theorem W6_v59 : W6 m ρ c (Proc.devRef .tc main_v59)
    = agg64 (W5 m ρ c (Proc.devRef .tc main_v1)) (W5 m ρ c (Proc.devRef .tc main_v3)) (W5 m ρ c (Proc.devRef .tc main_v25))
        (W5 m ρ c (Proc.devRef .tc main_v46)) := by
  show StableHlo.after hostOps3 (W5 m ρ c) (Proc.devRef .tc main_v59) = _
  dsimp only [hostOps3]; after_results_simp; rfl
theorem W6_v63 : W6 m ρ c (Proc.devRef .tc main_v63)
    = self64 (W5 m ρ c (Proc.devRef .tc main_v10)) (W5 m ρ c (Proc.devRef .tc main_v46)) := by
  show StableHlo.after hostOps3 (W5 m ρ c) (Proc.devRef .tc main_v63) = _
  dsimp only [hostOps3]; after_results_simp; rfl
theorem W6_v64 : W6 m ρ c (Proc.devRef .tc main_v64) = biasRow64 (W5 m ρ c (Proc.devRef .tc main_arg5)) := by
  show StableHlo.after hostOps3 (W5 m ρ c) (Proc.devRef .tc main_v64) = _
  dsimp only [hostOps3]; after_results_simp; rfl

end Cert.KernelIdeal.Host

end
-- ==== Proof.Spec.lean ====
/-
  What each of the four kernel launches leaves in its output array, as one function of the arrays it reads, index by
  index over the extended reals.

  Two launches multiply a [50000, K] array of node features by a [K, N] weight matrix, ten row blocks of 5000 at a time:
  entry (r, h) of the product is  Σₖ x (r, k) · w (k, h),  whichever block row r falls in. The other two add the
  aggregated neighbour messages, the self-loop term and the bias row, entry by entry, and apply the layer's activation:
  max(·, 0) after the first layer, the logistic function  1 / (1 + e^(-·))  after the second.
-/
import proofs.«166711_j87333864997320_1_alg».proof.KernelIdeal
import Idealize.ShloMosaic.PureOps.Ideal
import Idealize.ShloMosaic.Lib.ValueIdx

noncomputable section

open scoped BigOperators

namespace Cert.KernelIdeal.Spec

open Idealize.ShloMosaic Idealize.ShloMosaic.ValueIdx Cert.KernelIdeal

/-- First layer's feature transform: entry (r, h) is Σₖ x (r, k) · w (k, h), k over the 64 input features. -/
def mm1 (x : FVec Ideal S50000x64 .f32) (w : FVec Ideal S64x96 .f32) : FVec Ideal S50000x96 .f32 :=
  fun i => ∑ k : Fin 64, x (ix2 (⟨(i 0).val, (i 0).isLt⟩ : Fin 50000) k) * w (ix2 k (⟨(i 1).val, (i 1).isLt⟩ : Fin 96))

/-- Second layer's feature transform: entry (r, h) is Σₖ x (r, k) · w (k, h), k over the 96 hidden features. -/
def mm2 (x : FVec Ideal S50000x96 .f32) (w : FVec Ideal S96x64 .f32) : FVec Ideal S50000x64 .f32 :=
  fun i => ∑ k : Fin 96, x (ix2 (⟨(i 0).val, (i 0).isLt⟩ : Fin 50000) k) * w (ix2 k (⟨(i 1).val, (i 1).isLt⟩ : Fin 64))

/-- First layer's combine: max((a + s) + bias row, 0), entry by entry; the bias row is read at the entry's column. -/
def comb1 (a s : FVec Ideal S50000x96 .f32) (b : FVec Ideal S1x96 .f32) : FVec Ideal S50000x96 .f32 :=
  fun i => max ((a i + s i) + b (ix2 (0 : Fin 1) (⟨(i 1).val, (i 1).isLt⟩ : Fin 96))) (Ideal.ofBits .f32 0x00000000#32)

/-- Second layer's combine: logistic((a + s) + bias row), entry by entry. -/
def comb3 (a s : FVec Ideal S50000x64 .f32) (b : FVec Ideal S1x64 .f32) : FVec Ideal S50000x64 .f32 :=
  fun i => Ideal.logistic ((a i + s i) + b (ix2 (0 : Fin 1) (⟨(i 1).val, (i 1).isLt⟩ : Fin 64)))

end Cert.KernelIdeal.Spec

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.Reg0.lean ====
/-
  The first matrix-product launch, read as one function of the two arrays it multiplies.

  The launch has ten grid points. Point t stages rows 5000·t … 5000·t + 4999 of the [50000, 64] feature array and the
  whole [64, 96] weight matrix, multiplies the two blocks into a zero accumulator, and writes the [5000, 96] product back
  to rows 5000·t … 5000·t + 4999 of the result array. Over the extended reals narrowing an operand to bf16 leaves every
  entry as it was, so entry (p, h) of point t's product is  Σₖ x (5000·t + p, k) · w (k, h):  the block, at the rows the
  point owns, of the full product  (r, h) ↦ Σₖ x (r, k) · w (k, h).  The ten row blocks tile the result array (row r lies
  in the block of point r / 5000), so after the last write-back the array holds the full product.
-/
import proofs.«166711_j87333864997320_1_alg».proof.Proof.Gen.KernelIdeal.Frame
import proofs.«166711_j87333864997320_1_alg».proof.Proof.Spec
import proofs.«166711_j87333864997320_1_alg».proof.Proof.LibMatmul2
import Idealize.ShloMosaic.Lib.Pipeline.Value
import Idealize.ShloMosaic.Lib.ValueIdx
import Idealize.ShloMosaic.PureOps.Ideal.Laws

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension record, axis by axis -/

/-- The left operand is read at the output's row. -/
theorem lhs_axis0 (i : S5000x96.Idx) (q : dot_S5000x64_S64x96_S5000x96_1_0_0_1_n_n.contr.Idx) :
    (dot_S5000x64_S64x96_S5000x96_1_0_0_1_n_n.lhsIdx i q 0).val = (i 0).val := by
  unfold DotDims.lhsIdx
  rw [dif_neg (show ¬(0 : Fin S5000x64.rank) ∈ dot_S5000x64_S64x96_S5000x96_1_0_0_1_n_n.lhsBatch by decide), dif_pos (show (0 : Fin S5000x64.rank) ∈ dot_S5000x64_S64x96_S5000x96_1_0_0_1_n_n.lhsNonContracting by decide)]
  rfl

/-- The left operand's column is the summation index. -/
theorem lhs_axis1 (i : S5000x96.Idx) (q : dot_S5000x64_S64x96_S5000x96_1_0_0_1_n_n.contr.Idx) :
    (dot_S5000x64_S64x96_S5000x96_1_0_0_1_n_n.lhsIdx i q 1).val = (q ⟨0, by decide⟩).val :=
  dot_S5000x64_S64x96_S5000x96_1_0_0_1_n_n.lhsIdx_val_of_single rfl i q

/-- The right operand's row is the summation index. -/
theorem rhs_axis0 (i : S5000x96.Idx) (q : dot_S5000x64_S64x96_S5000x96_1_0_0_1_n_n.contr.Idx) :
    (dot_S5000x64_S64x96_S5000x96_1_0_0_1_n_n.rhsIdx i q 0).val = (q ⟨0, by decide⟩).val :=
  dot_S5000x64_S64x96_S5000x96_1_0_0_1_n_n.rhsIdx_val_of_single rfl i q

/-- The right operand is read at the output's column. -/
theorem rhs_axis1 (i : S5000x96.Idx) (q : dot_S5000x64_S64x96_S5000x96_1_0_0_1_n_n.contr.Idx) :
    (dot_S5000x64_S64x96_S5000x96_1_0_0_1_n_n.rhsIdx i q 1).val = (i 1).val := by
  unfold DotDims.rhsIdx
  rw [dif_neg (show ¬(1 : Fin S64x96.rank) ∈ dot_S5000x64_S64x96_S5000x96_1_0_0_1_n_n.rhsBatch by decide), dif_pos (show (1 : Fin S64x96.rank) ∈ dot_S5000x64_S64x96_S5000x96_1_0_0_1_n_n.rhsNonContracting by decide)]
  rfl

/-! ## One point's product, entry by entry -/

/-- Entry (p, h) of what a point stores: the row p of its feature block against column h of the weights. -/
theorem product_apply (x0 : Vec Ideal S5000x64 .f32) (x1 : Vec Ideal S64x96 .f32) (p : Fin 5000) (h : Fin 96) :
    k0_pay1 (F := Ideal) x0 x1 (ix2 p h) = ∑ k : Fin 64, x0 (ix2 p k) * x1 (ix2 k h) := by
  unfold k0_pay1
  exact Cert.LibMatmul2.matmul_zero_apply dot_S5000x64_S64x96_S5000x96_1_0_0_1_n_n rfl rfl lhs_axis0 lhs_axis1 rhs_axis0 rhs_axis1
    (truncf .bf16 x0 bitsLt_bf16_f32) (truncf .bf16 x1 bitsLt_bf16_f32) p h

/-- A point's product is a block of the full product: if the point's feature block is rows n·5000 … of x and its weight
    block is all of w, then entry j of its product is entry i of the full product, i being j moved down n·5000 rows. -/
theorem product_is_block (x : FVec Ideal S50000x64 .f32) (w : FVec Ideal S64x96 .f32)
    (x0 : Vec Ideal S5000x64 .f32) (x1 : Vec Ideal S64x96 .f32) (n : Nat)
    (hx0 : ∀ (p : Fin 5000) (k : Fin 64) (r : Fin 50000), r.val = n * 5000 + p.val → x0 (ix2 p k) = x (ix2 r k))
    (hx1 : ∀ (k : Fin 64) (h : Fin 96), x1 (ix2 k h) = w (ix2 k h))
    (j : S5000x96.Idx) (i : S50000x96.Idx) (hi0 : (i 0).val = n * 5000 + (j 0).val) (hi1 : (i 1).val = (j 1).val) :
    k0_pay1 (F := Ideal) x0 x1 j = Spec.mm1 x w i := by
  obtain ⟨p, h, rfl⟩ : ∃ (p : Fin 5000) (h : Fin 96), j = ix2 p h := ⟨j 0, j 1, eq_ix2 j⟩
  rw [product_apply]
  unfold Spec.mm1
  refine Finset.sum_congr rfl fun k _ => ?_
  rw [hx0 p k ⟨(i 0).val, (i 0).isLt⟩ hi0, hx1 k h]
  have e : (⟨(i 1).val, (i 1).isLt⟩ : Fin 96) = h := Fin.ext hi1
  rw [e]

/-! ## From the ten blocks to the array -/

theorem hz : (![0, 0] : Fin 2 → Nat) = fun _ => 0 := funext fun a => by fin_cases a <;> rfl

/-- The printed index maps over the grid: point t's feature block and result block are row block t, column block 0; its
    weight block is block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the full product of the two arrays as the launch finds them. -/
theorem flushed_eq (c : Dev nD) (t : Fin cfg0.N) :
    (dat0 (F := Ideal) V c).flushed 2 t
      = ((cfg0.win 2).blk t).view.read (Elt Ideal) (Spec.mm1 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x96) hz]
  obtain ⟨a0, a1, b0, b1, o0, o1⟩ := block_indices t
  funext j
  refine product_is_block (V c main_arg0) (V c main_arg2) (iblk0 V c 0 t) (iblk0 V c 1 t) t.val ?_ ?_ j
    (((cfg0.win 2).blk t).view.emb j) ?_ ?_
  · intro p k r hr
    show V c main_arg0 (((cfg0.win 0).blk t).view.emb (ix2 p k)) = V c main_arg0 (ix2 r k)
    congr 1
    funext a; apply Fin.ext
    match a with
    | ⟨0, _⟩ => show win0_0.index t (0 : Fin 2) * 5000 + 1 * p.val = r.val; omega
    | ⟨1, _⟩ => show win0_0.index t (1 : Fin 2) * 64 + 1 * k.val = k.val; omega
  · intro k h
    show V c main_arg2 (((cfg0.win 1).blk t).view.emb (ix2 k h)) = V c main_arg2 (ix2 k h)
    congr 1
    funext a; apply Fin.ext
    match a with
    | ⟨0, _⟩ => show win0_1.index t (0 : Fin 2) * 64 + 1 * k.val = k.val; omega
    | ⟨1, _⟩ => show win0_1.index t (1 : Fin 2) * 96 + 1 * h.val = h.val; omega
  · show win0_2.index t (0 : Fin 2) * 5000 + 1 * (j 0).val = t.val * 5000 + (j 0).val; omega
  · show win0_2.index t (1 : Fin 2) * 96 + 1 * (j 1).val = (j 1).val; omega

/-- An index of the result array lies in point t's block iff each coordinate lies in the block's range on its axis. -/
theorem mem_blk (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v26).slice (win0_2.rect t)).set ↔ _
  rw [View.set_slice_whole, Rect.mem_set_unit]
  exact Iff.rfl

/-- Every index of the result array lies in the block of the point its row divided by 5000 names. -/
theorem cover (i : S50000x96.Idx) : ∃ t : Fin cfg0.N, (cfg0.win 2).flush t = true ∧ i ∈ ((cfg0.win 2).blk t).view.set := by
  have h0 : (i 0).val < 50000 := (i 0).isLt
  have h1 : (i 1).val < 96 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, o0, o1⟩ := block_indices t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- The result array after the launch is the full product of the feature array and the weight matrix. -/
theorem arr_eq (V : (c : Dev nD) → (b : Ref sig .tc) → Buf (Elt Ideal) ((c : Thread nD τ).loc b)) (c : Dev nD) :
    (Gen.dat0 (F := Ideal) V c).arrAt 2 cfg0.N = Spec.mm1 (V c main_arg0) (V c main_arg2) :=
  (dat0 (F := Ideal) V c).arrAt_eq_of_cover 2 (Spec.mm1 (V c main_arg0) (V c main_arg2)) (fun t _ => flushed_eq V c t) cover

end Cert.KernelIdeal.Reg0

end
-- ==== Proof.Reg1.lean ====
/-
  The first layer's combine launch, read as one function of the three arrays it fetches.

  Each of the ten grid points loads a block of 5000 rows of the aggregated messages, the same rows of the self-loop
  term, and the whole one-row bias; it stores  max((a + s) + bias, 0)  entry by entry into the matching rows of the
  result. Row p of point t's block is row 5000·t + p of the arrays, the ten blocks fill the 50000 rows, and so the
  result array ends holding  max((a + s) + bias row, 0)  at every entry.
-/
import proofs.«166711_j87333864997320_1_alg».proof.Proof.Gen.KernelIdeal.Frame
import proofs.«166711_j87333864997320_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen

/-- The body's loads and its store start at offset zero on both axes. -/
theorem offsets_zero : (![0, 0] : Fin 2 → Nat) = fun _ => 0 := funext fun a => by fin_cases a <;> rfl

/-- The body's stored value at row p, column q of its block: the two loaded blocks added there, the bias row's
    entry of column q added on, and the maximum with the zero word taken. -/
theorem payload_apply (x0 x1 : FVec Ideal S5000x96 .f32) (x2 : FVec Ideal S1x96 .f32) (p : Fin 5000) (q : Fin 96) :
    k1_pay1 (F := Ideal) x0 x1 x2 (ix2 p q)
      = max ((x0 (ix2 p q) + x1 (ix2 p q)) + x2 (ix2 (0 : Fin 1) q)) (Ideal.ofBits .f32 0x00000000#32) := by
  unfold k1_pay1
  simp only [shapeCast_self]
  rw [maximumf_apply, addf_apply, addf_apply, broadcast_apply,
    broadcastTo_1b_ab_apply (a := 5000) (b := 96) x2 broadcasts_S1x96_S5000x96 p q]
  rfl

/-- The stored value where the three loaded entries are the arrays' entries at one index of the result (the bias
    row's at that index's column) is the combine of the arrays there. -/
theorem entry_eq (A S : FVec Ideal S50000x96 .f32) (B : FVec Ideal S1x96 .f32) (i0 i1 i : S50000x96.Idx) (i2 : S1x96.Idx)
    (h0 : i0 = i) (h1 : i1 = i) (h2 : i2 = ix2 (0 : Fin 1) (⟨(i 1).val, (i 1).isLt⟩ : Fin 96)) :
    max ((A i0 + S i1) + B i2) (Ideal.ofBits .f32 0x00000000#32) = Spec.comb1 A S B i := by
  subst h0 h1 h2; rfl

/-- The printed index maps, decided over the grid: at point t the three row-blocked windows sit at block row t,
    block column 0; the bias window always at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the combine of the three arrays as the launch finds them. -/
theorem flushed_eq (c : Dev nD) (t : Fin cfg1.N) :
    (dat1 (F := Ideal) V c).flushed 3 t
      = ((cfg1.win 3).blk t).view.read (Elt Ideal) (Spec.comb1 (V c main_v39) (V c main_v43) (V c main_v44)) := by
  show (cfg1.win 3).cut (grid1.coords t) ((dat1 (F := Ideal) V c).after 3 t) = _
  rw [after1_3]
  unfold out1_3
  rw [View.canon_unit_zero offsets_zero]
  simp only [View.ld_unit_zero (S := S5000x96) offsets_zero, View.ld_unit_zero (S := S1x96) offsets_zero]
  obtain ⟨e00, e01, e10, e11, e20, e21, e30, e31⟩ := index_facts t
  funext j
  obtain ⟨p, q, rfl⟩ : ∃ (p : Fin 5000) (q : Fin 96), j = ix2 p q := ⟨j 0, j 1, eq_ix2 j⟩
  show k1_pay1 (F := Ideal) (iblk1 V c 0 t) (iblk1 V c 1 t) (iblk1 V c 2 t) (ix2 p q)
    = Spec.comb1 (V c main_v39) (V c main_v43) (V c main_v44) (((cfg1.win 3).blk t).view.emb (ix2 p q))
  rw [payload_apply]
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 96 + 1 * q.val = win1_3.index t (1 : Fin 2) * 96 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 96 + 1 * q.val = win1_3.index t (1 : Fin 2) * 96 + 1 * q.val; omega
  have h2 : ((cfg1.win 2).blk t).view.emb (ix2 (0 : Fin 1) q)
      = ix2 (0 : Fin 1) (⟨((((cfg1.win 3).blk t).view.emb (ix2 p q)) 1).val, ((((cfg1.win 3).blk t).view.emb (ix2 p q)) 1).isLt⟩ : Fin 96) := by
    funext a; apply Fin.ext
    match a with
    | ⟨0, _⟩ => show win1_2.index t (0 : Fin 2) * 1 + 1 * 0 = 0; omega
    | ⟨1, _⟩ => show win1_2.index t (1 : Fin 2) * 96 + 1 * q.val = win1_3.index t (1 : Fin 2) * 96 + 1 * q.val; omega
  exact entry_eq (V c main_v39) (V c main_v43) (V c main_v44) _ _ _ _ h0 h1 h2

/-- An index of the result array is in point t's block iff each coordinate is in the block's range on its axis. -/
theorem mem_block (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v45).slice (win1_3.rect t)).set ↔ _
  rw [View.set_slice_whole, Rect.mem_set_unit]
  exact Iff.rfl

/-- Every block row of the result is some point's. -/
theorem index_onto : ∀ (b : Fin 10), ∃ t : Fin cfg1.N, win1_3.index t = ![b.val, 0] :=
  (by decide +kernel : ∀ (b : Fin 10), ∃ t : Fin grid1.N, win1_3.index t = ![b.val, 0])

/-- Every entry of the result is in the block of the point its row falls in: row r in that of point r / 5000. -/
theorem covered (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-- The result array after the launch: the combine of the three arrays as the launch finds them, at every entry. -/
theorem arr_eq (V : (c : Dev nD) → (b : Ref sig .tc) → Buf (Elt Ideal) ((c : Thread nD τ).loc b)) (c : Dev nD) :
    (Gen.dat1 (F := Ideal) V c).arrAt 3 cfg1.N = Spec.comb1 (V c main_v39) (V c main_v43) (V c main_v44) :=
  (Gen.dat1 (F := Ideal) V c).arrAt_eq_of_cover 3 _ (fun t _ => flushed_eq V c t) covered

end Cert.KernelIdeal.Reg1

end
-- ==== Proof.Reg2.lean ====
/-
  The second matrix-product launch, read as one function of the two arrays it multiplies.

  Again ten grid points. Point t stages rows 5000·t … 5000·t + 4999 of the [50000, 96] hidden array (what the first
  combine launch left) and the whole [96, 64] weight matrix of the second layer, multiplies the two blocks into a zero
  accumulator, and writes the [5000, 64] product back to rows 5000·t … 5000·t + 4999 of the result array. The body
  reshapes its feature block to the shape it already has, which moves nothing, and narrows both operands to bf16, which
  over the extended reals leaves every entry as it was. So entry (p, h) of point t's product is
  Σₖ x (5000·t + p, k) · w (k, h), k over the 96 hidden features: the block, at the rows the point owns, of the full
  product  (r, h) ↦ Σₖ x (r, k) · w (k, h).  The ten row blocks tile the result array (row r lies in the block of point
  r / 5000), so after the last write-back the array holds the full product.
-/
import proofs.«166711_j87333864997320_1_alg».proof.Proof.Gen.KernelIdeal.Frame
import proofs.«166711_j87333864997320_1_alg».proof.Proof.Spec
import proofs.«166711_j87333864997320_1_alg».proof.Proof.LibMatmul2
import Idealize.ShloMosaic.Lib.Pipeline.Value
import Idealize.ShloMosaic.Lib.ValueIdx
import Idealize.ShloMosaic.PureOps.Ideal.Laws

noncomputable section

open scoped BigOperators

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension record, axis by axis -/

/-- The left operand is read at the output's row. -/
theorem lhs_axis0 (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl

/-- The left operand's column is the summation index. -/
theorem lhs_axis1 (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q

/-- The right operand's row is the summation index. -/
theorem rhs_axis0 (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q

/-- The right operand is read at the output's column. -/
theorem rhs_axis1 (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-! ## One point's product, entry by entry -/

/-- Entry (p, h) of what a point stores: row p of its hidden block against column h of the weights. The reshape to the
    same shape is the identity, and so, entry by entry, is the narrowing to bf16. -/
theorem product_apply (x0 : Vec Ideal S5000x96 .f32) (x1 : Vec Ideal S96x64 .f32) (p : Fin 5000) (h : Fin 64) :
    k2_pay1 (F := Ideal) x0 x1 (ix2 p h) = ∑ k : Fin 96, x0 (ix2 p k) * x1 (ix2 k h) := by
  unfold k2_pay1
  refine (Cert.LibMatmul2.matmul_zero_apply dot_S5000x96_S96x64_S5000x64_1_0_0_1_n_n rfl rfl lhs_axis0 lhs_axis1 rhs_axis0 rhs_axis1
    (truncf .bf16 (shapeCast S5000x96 x0 shapeCasts_S5000x96_S5000x96) bitsLt_bf16_f32) (truncf .bf16 x1 bitsLt_bf16_f32) p h).trans ?_
  rw [shapeCast_self]
  rfl

/-- A point's product is a block of the full product: if the point's hidden block is rows n·5000 … of x and its weight
    block is all of w, then entry j of its product is entry i of the full product, i being j moved down n·5000 rows. -/
theorem product_is_block (x : FVec Ideal S50000x96 .f32) (w : FVec Ideal S96x64 .f32)
    (x0 : Vec Ideal S5000x96 .f32) (x1 : Vec Ideal S96x64 .f32) (n : Nat)
    (hx0 : ∀ (p : Fin 5000) (k : Fin 96) (r : Fin 50000), r.val = n * 5000 + p.val → x0 (ix2 p k) = x (ix2 r k))
    (hx1 : ∀ (k : Fin 96) (h : Fin 64), x1 (ix2 k h) = w (ix2 k h))
    (j : S5000x64.Idx) (i : S50000x64.Idx) (hi0 : (i 0).val = n * 5000 + (j 0).val) (hi1 : (i 1).val = (j 1).val) :
    k2_pay1 (F := Ideal) x0 x1 j = Spec.mm2 x w i := by
  obtain ⟨p, h, rfl⟩ : ∃ (p : Fin 5000) (h : Fin 64), j = ix2 p h := ⟨j 0, j 1, eq_ix2 j⟩
  rw [product_apply]
  unfold Spec.mm2
  refine Finset.sum_congr rfl fun k _ => ?_
  rw [hx0 p k ⟨(i 0).val, (i 0).isLt⟩ hi0, hx1 k h]
  have e : (⟨(i 1).val, (i 1).isLt⟩ : Fin 64) = h := Fin.ext hi1
  rw [e]

/-! ## From the ten blocks to the array -/

theorem hz : (![0, 0] : Fin 2 → Nat) = fun _ => 0 := funext fun a => by fin_cases a <;> rfl

/-- The printed index maps over the grid: point t's hidden block and result block are row block t, column block 0; its
    weight block is block (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the full product of the two arrays as the launch finds them. -/
theorem flushed_eq (c : Dev nD) (t : Fin cfg2.N) :
    (dat2 (F := Ideal) V c).flushed 2 t
      = ((cfg2.win 2).blk t).view.read (Elt Ideal) (Spec.mm2 (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S5000x96) hz, View.ld_unit_zero (S := S96x64) hz]
  obtain ⟨a0, a1, b0, b1, o0, o1⟩ := block_indices t
  funext j
  refine product_is_block (V c main_v45) (V c main_arg4) (iblk2 V c 0 t) (iblk2 V c 1 t) t.val ?_ ?_ j
    (((cfg2.win 2).blk t).view.emb j) ?_ ?_
  · intro p k r hr
    show V c main_v45 (((cfg2.win 0).blk t).view.emb (ix2 p k)) = V c main_v45 (ix2 r k)
    congr 1
    funext a; apply Fin.ext
    match a with
    | ⟨0, _⟩ => show win2_0.index t (0 : Fin 2) * 5000 + 1 * p.val = r.val; omega
    | ⟨1, _⟩ => show win2_0.index t (1 : Fin 2) * 96 + 1 * k.val = k.val; omega
  · intro k h
    show V c main_arg4 (((cfg2.win 1).blk t).view.emb (ix2 k h)) = V c main_arg4 (ix2 k h)
    congr 1
    funext a; apply Fin.ext
    match a with
    | ⟨0, _⟩ => show win2_1.index t (0 : Fin 2) * 96 + 1 * k.val = k.val; omega
    | ⟨1, _⟩ => show win2_1.index t (1 : Fin 2) * 64 + 1 * h.val = h.val; omega
  · show win2_2.index t (0 : Fin 2) * 5000 + 1 * (j 0).val = t.val * 5000 + (j 0).val; omega
  · show win2_2.index t (1 : Fin 2) * 64 + 1 * (j 1).val = (j 1).val; omega

/-- An index of the result array lies in point t's block iff each coordinate lies in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every index of the result array lies in the block of the point its row divided by 5000 names. -/
theorem cover (i : S50000x64.Idx) : ∃ t : Fin cfg2.N, (cfg2.win 2).flush t = true ∧ i ∈ ((cfg2.win 2).blk t).view.set := by
  have h0 : (i 0).val < 50000 := (i 0).isLt
  have h1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, o0, o1⟩ := block_indices t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the launch is the full product of the hidden array and the second weight matrix. -/
theorem arr_eq (V : (c : Dev nD) → (b : Ref sig .tc) → Buf (Elt Ideal) ((c : Thread nD τ).loc b)) (c : Dev nD) :
    (Gen.dat2 (F := Ideal) V c).arrAt 2 cfg2.N = Spec.mm2 (V c main_v45) (V c main_arg4) :=
  (dat2 (F := Ideal) V c).arrAt_eq_of_cover 2 (Spec.mm2 (V c main_v45) (V c main_arg4)) (fun t _ => flushed_eq V c t) cover

end Cert.KernelIdeal.Reg2

end
-- ==== Proof.Reg3.lean ====
/-
  The second layer's combine launch, read as one function of the three arrays it fetches.

  Each of the ten grid points loads a block of 5000 rows of the aggregated messages, the same rows of the self-loop
  term, and the whole one-row bias; it stores  logistic((a + s) + bias)  entry by entry into the matching rows of the
  result. Row p of point t's block is row 5000·t + p of the arrays, the ten blocks fill the 50000 rows, and so the
  result array ends holding  logistic((a + s) + bias row),  that is  1 / (1 + e^(-((a + s) + bias row))),  at every entry.
-/
import proofs.«166711_j87333864997320_1_alg».proof.Proof.Gen.KernelIdeal.Frame
import proofs.«166711_j87333864997320_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg3

open Idealize.ShloMosaic Idealize.ShloMosaic.TcCoe Idealize.ShloMosaic.ValueIdx Idealize.SL.Sem
open Idealize.ShloMosaic.Pipeline (Dat)
open Cert.KernelIdeal Cert.KernelIdeal.Gen

/-- The body's loads and its store start at offset zero on both axes. -/
theorem offsets_zero : (![0, 0] : Fin 2 → Nat) = fun _ => 0 := funext fun a => by fin_cases a <;> rfl

/-- The body's stored value at row p, column q of its block: the two loaded blocks added there, the bias row's
    entry of column q added on, and the logistic function applied. -/
theorem payload_apply (x0 x1 : FVec Ideal S5000x64 .f32) (x2 : FVec Ideal S1x64 .f32) (p : Fin 5000) (q : Fin 64) :
    k3_pay1 (F := Ideal) x0 x1 x2 (ix2 p q)
      = Ideal.logistic ((x0 (ix2 p q) + x1 (ix2 p q)) + x2 (ix2 (0 : Fin 1) q)) := by
  unfold k3_pay1
  simp only [shapeCast_self]
  show Ideal.logistic (addf (addf x0 x1) (broadcastTo S5000x64 x2 broadcasts_S1x64_S5000x64) (ix2 p q)) = _
  rw [addf_apply, addf_apply, broadcastTo_1b_ab_apply (a := 5000) (b := 64) x2 broadcasts_S1x64_S5000x64 p q]

/-- The stored value where the three loaded entries are the arrays' entries at one index of the result (the bias
    row's at that index's column) is the combine of the arrays there. -/
theorem entry_eq (A S : FVec Ideal S50000x64 .f32) (B : FVec Ideal S1x64 .f32) (i0 i1 i : S50000x64.Idx) (i2 : S1x64.Idx)
    (h0 : i0 = i) (h1 : i1 = i) (h2 : i2 = ix2 (0 : Fin 1) (⟨(i 1).val, (i 1).isLt⟩ : Fin 64)) :
    Ideal.logistic ((A i0 + S i1) + B i2) = Spec.comb3 A S B i := by
  subst h0 h1 h2; rfl

/-- The printed index maps, decided over the grid: at point t the three row-blocked windows sit at block row t,
    block column 0; the bias window always at block (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of the combine of the three arrays as the launch finds them. -/
theorem flushed_eq (c : Dev nD) (t : Fin cfg3.N) :
    (dat3 (F := Ideal) V c).flushed 3 t
      = ((cfg3.win 3).blk t).view.read (Elt Ideal) (Spec.comb3 (V c main_v59) (V c main_v63) (V c main_v64)) := by
  show (cfg3.win 3).cut (grid3.coords t) ((dat3 (F := Ideal) V c).after 3 t) = _
  rw [after3_3]
  unfold out3_3
  rw [View.canon_unit_zero offsets_zero]
  simp only [View.ld_unit_zero (S := S5000x64) offsets_zero, View.ld_unit_zero (S := S1x64) offsets_zero]
  obtain ⟨e00, e01, e10, e11, e20, e21, e30, e31⟩ := index_facts t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (ix2 p q)
    = Spec.comb3 (V c main_v59) (V c main_v63) (V c main_v64) (((cfg3.win 3).blk t).view.emb (ix2 p q))
  rw [payload_apply]
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h1 : ((cfg3.win 1).blk t).view.emb (ix2 p q) = ((cfg3.win 3).blk t).view.emb (ix2 p q) := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 64 + 1 * q.val = win3_3.index t (1 : Fin 2) * 64 + 1 * q.val; omega
  have h2 : ((cfg3.win 2).blk t).view.emb (ix2 (0 : Fin 1) q)
      = ix2 (0 : Fin 1) (⟨((((cfg3.win 3).blk t).view.emb (ix2 p q)) 1).val, ((((cfg3.win 3).blk t).view.emb (ix2 p q)) 1).isLt⟩ : Fin 64) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  exact entry_eq (V c main_v59) (V c main_v63) (V c main_v64) _ _ _ _ h0 h1 h2

/-- An index of the result array is in point t's block iff each coordinate is in the block's range on its axis. -/
theorem mem_block (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v65).slice (win3_3.rect t)).set ↔ _
  rw [View.set_slice_whole, Rect.mem_set_unit]
  exact Iff.rfl

/-- Every block row of the result is some point's. -/
theorem index_onto : ∀ (b : Fin 10), ∃ t : Fin cfg3.N, win3_3.index t = ![b.val, 0] :=
  (by decide +kernel : ∀ (b : Fin 10), ∃ t : Fin grid3.N, win3_3.index t = ![b.val, 0])

/-- Every entry of the result is in the block of the point its row falls in: row r in that of point r / 5000. -/
theorem covered (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := index_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The result array after the launch: the combine of the three arrays as the launch finds them, at every entry. -/
theorem arr_eq (V : (c : Dev nD) → (b : Ref sig .tc) → Buf (Elt Ideal) ((c : Thread nD τ).loc b)) (c : Dev nD) :
    (Gen.dat3 (F := Ideal) V c).arrAt 3 cfg3.N = Spec.comb3 (V c main_v59) (V c main_v63) (V c main_v64) :=
  (Gen.dat3 (F := Ideal) V c).arrAt_eq_of_cover 3 _ (fun t _ => flushed_eq V c t) covered

end Cert.KernelIdeal.Reg3

end
-- ==== Proof.KValue.lean ====
/-
  What the idealized kernel program computes, as one function of its six argument arrays.

  Layer 1:  h = x · W1  (first launch),  agg and self-loop term on the host,  o1 = max(agg + self + b1, 0)  (second
  launch).  Layer 2:  h' = o1 · W2  (third launch),  agg' and self' on the host,  result = logistic(agg' + self' + b2)
  (fourth launch).  Each launch's output array is the whole-array function of the arrays it reads that its blocks
  tile; each host stretch is read operation by operation; the buffers nobody writes in between keep their contents.
  So the result buffer at the end of the run is the composition of those eight steps applied to the arguments.
-/
import proofs.«166711_j87333864997320_1_alg».proof.Proof.KHost
import proofs.«166711_j87333864997320_1_alg».proof.Proof.KRun
import proofs.«166711_j87333864997320_1_alg».proof.Proof.Spec
import proofs.«166711_j87333864997320_1_alg».proof.Proof.Reg0
import proofs.«166711_j87333864997320_1_alg».proof.Proof.Reg1
import proofs.«166711_j87333864997320_1_alg».proof.Proof.Reg2
import proofs.«166711_j87333864997320_1_alg».proof.Proof.Reg3
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.SL.Sem Idealize.ShloMosaic.StableHlo Idealize.ShloMosaic.ValueIdx
open Cert.KernelIdeal Cert.KernelIdeal.Host

/-! ## The two layers as functions of the arguments -/

/-- Layer 1: max(agg(x·W1) + self(x·W1) + b1, 0). -/
def layer1 (x : FVec Ideal S50000x64 .f32) (e : IVec S2x800000 32) (w1 : FVec Ideal S64x96 .f32) (b1 : FVec Ideal S96 .f32) :
    FVec Ideal S50000x96 .f32 :=
  Spec.comb1
    (agg96 (srcRow e) (dstRow e) (norm (srcRow e) (dstRow e) (dis (dstRow e))) (Spec.mm1 x w1))
    (self96 (dis (dstRow e)) (Spec.mm1 x w1))
    (biasRow96 b1)

/-- Layer 2 over layer 1's output o: logistic(agg(o·W2) + self(o·W2) + b2). -/
def layer2 (o : FVec Ideal S50000x96 .f32) (e : IVec S2x800000 32) (w2 : FVec Ideal S96x64 .f32) (b2 : FVec Ideal S64 .f32) :
    FVec Ideal S50000x64 .f32 :=
  Spec.comb3
    (agg64 (srcRow e) (dstRow e) (norm (srcRow e) (dstRow e) (dis (dstRow e))) (Spec.mm2 o w2))
    (self64 (dis (dstRow e)) (Spec.mm2 o w2))
    (biasRow64 b2)

/-- The whole forward pass. -/
def out (x : FVec Ideal S50000x64 .f32) (e : IVec S2x800000 32) (w1 : FVec Ideal S64x96 .f32) (b1 : FVec Ideal S96 .f32)
    (w2 : FVec Ideal S96x64 .f32) (b2 : FVec Ideal S64 .f32) : FVec Ideal S50000x64 .f32 :=
  layer2 (layer1 x e w1 b1) e w2 b2

/-! ## The bias rows, read at a column -/

theorem biasRow96_apply (b : FVec Ideal S96 .f32) (j : Fin 96) : biasRow96 b (ix2 (0 : Fin 1) j) = b (ix1 j) := by
  unfold biasRow96
  exact shapeCast_apply b _ (ix2 (0 : Fin 1) j) (ix1 j)
    (by rewrite [Shape.rowMajor_val_one, Shape.rowMajor_val_two]; show j.val = 0 * 96 + j.val; omega)

theorem biasRow64_apply (b : FVec Ideal S64 .f32) (j : Fin 64) : biasRow64 b (ix2 (0 : Fin 1) j) = b (ix1 j) := by
  unfold biasRow64
  exact shapeCast_apply b _ (ix2 (0 : Fin 1) j) (ix1 j)
    (by rewrite [Shape.rowMajor_val_one, Shape.rowMajor_val_two]; show j.val = 0 * 64 + j.val; omega)

/-! ## The run's buffers, launch by launch -/

open Cert.KernelIdeal.Gen

variable (m : (ℓ : Loc nD τ sig) → Buf (Elt Ideal) ℓ) (ρ : Dev nD → PrngReg) (c : Dev nD)

/-- After the first launch the feature buffer holds x · W1. -/
theorem W2_v26 : W2 m ρ c (Proc.devRef .tc main_v26)
    = Spec.mm1 (m ((c : Thread nD τ).loc main_arg0)) (m ((c : Thread nD τ).loc main_arg2)) :=
  (W2_arr m ρ c 2).trans ((Reg0.arr_eq (V1 m ρ) c).trans (congrArg₂ Spec.mm1 (W1_arg0 m ρ c) (W1_arg2 m ρ c)))

/-- After the second launch its output buffer holds layer 1. -/
theorem W4_v45 : W4 m ρ c (Proc.devRef .tc main_v45)
    = layer1 (m ((c : Thread nD τ).loc main_arg0)) (m ((c : Thread nD τ).loc main_arg1)) (m ((c : Thread nD τ).loc main_arg2))
        (m ((c : Thread nD τ).loc main_arg3)) := by
  refine (W4_arr m ρ c 3).trans ((Reg1.arr_eq (V3 m ρ) c).trans ?_)
  show Spec.comb1 (W3 m ρ c (Proc.devRef .tc main_v39)) (W3 m ρ c (Proc.devRef .tc main_v43)) (W3 m ρ c (Proc.devRef .tc main_v44)) = _
  rw [W3_v39, W3_v43, W3_v44, W2_v1, W2_v3, W2_v25, W2_v10, W2_arg3, W2_v26]
  rfl

/-- After the third launch the second feature buffer holds layer 1 times W2. -/
theorem W5_v46 : W5 m ρ c (Proc.devRef .tc main_v46)
    = Spec.mm2 (layer1 (m ((c : Thread nD τ).loc main_arg0)) (m ((c : Thread nD τ).loc main_arg1)) (m ((c : Thread nD τ).loc main_arg2))
        (m ((c : Thread nD τ).loc main_arg3))) (m ((c : Thread nD τ).loc main_arg4)) :=
  (W5_arr m ρ c 2).trans ((Reg2.arr_eq (V4 m ρ) c).trans (congrArg₂ Spec.mm2 (W4_v45 m ρ c) (W4_arg4 m ρ c)))

/-- After the last launch the result buffer holds the whole forward pass of the arguments. -/
theorem W7_v65 : W7 m ρ c (Proc.devRef .tc main_v65)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W7_arr m ρ c 3).trans ((Reg3.arr_eq (V6 m ρ) c).trans ?_)
  show Spec.comb3 (W6 m ρ c (Proc.devRef .tc main_v59)) (W6 m ρ c (Proc.devRef .tc main_v63)) (W6 m ρ c (Proc.devRef .tc main_v64)) = _
  rw [W6_v59, W6_v63, W6_v64, W5_v1, W5_v3, W5_v25, W5_v10, W5_arg5, W5_v46]
  rfl

/-! ## The run -/

/-- Every weakly fair execution of the idealized kernel's @main terminates without a fault with the result array at the
    forward pass of the argument arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v65)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (W7_v65 m ρ c), (h c).2⟩)
    (Cert.KernelIdeal.Launched.run_result (F := Ideal) m ρ)

end Cert.KernelIdeal.Result

end
-- ==== Proof.LibDot2.lean ====
/-
  The host's rank-2 by rank-2 `dot_general`, read at an index at the ideal values.

  For a dimension record that contracts the left operand's second axis against the right operand's first, with no batch
  axis, the product of an [M, K] and a [K, N] matrix read at (p, h) is the plain sum  Σₖ a (p, k) · b (k, h)  over the
  extended reals: the host's product has no accumulator. The record's four coordinate facts (which operand coordinate is
  the output's row, the output's column, the contraction index) are hypotheses, decided on a literal record by whoever
  instantiates the lemma. The same sum is what a matrix unit's product into a zero accumulator reads, so the two meet.
-/
import Idealize.ShloMosaic.PureOps.Ideal.Laws
import Idealize.ShloMosaic.Lib.ValueIdx

noncomputable section

namespace Cert.LibDot2

open Idealize.ShloMosaic Idealize.ShloMosaic.ValueIdx

/-- The host's matrix product at (p, h) is Σₖ a (p, k) · b (k, h). -/
theorem hostDot_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    Host.dotGeneral D none a b (ix2 p h) = ∑ k : Fin K, a (ix2 p k) * b (ix2 k h) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibDot2

end
-- ==== Proof.RefDot.lean ====
/-
  The reference's two matrix products, read as the same sums the kernel's launches compute.

  The host multiplies the [50000, 64] feature array by the [64, 96] weight matrix, and later the [50000, 96] hidden array
  by the [96, 64] weight matrix, each contracting the left operand's columns against the right operand's rows. Over the
  extended reals the host's product has no accumulator and no rounding, so entry (r, h) is the plain sum
  Σₖ x (r, k) · w (k, h):  the function the kernel's matrix-product launches are shown to leave in their result arrays.
-/
import proofs.«166711_j87333864997320_1_alg».proof.Proof.Gen.ReferenceIdeal.Read
import proofs.«166711_j87333864997320_1_alg».proof.Proof.Spec
import proofs.«166711_j87333864997320_1_alg».proof.Proof.LibDot2

noncomputable section

open scoped BigOperators

namespace Cert.ReferenceIdeal.RefDot

open Cert.ReferenceIdeal Idealize.ShloMosaic Idealize.ShloMosaic.ValueIdx

/-- The first layer's product on the host is Σₖ x (r, k) · w (k, h), k over the 64 input features. -/
theorem dot1_eq (x : FVec Ideal S50000x64 .f32) (w : FVec Ideal S64x96 .f32) :
    Host.dotGeneral dot_S50000x64_S64x96_S50000x96_1_0_0_1_n_n none x w = Cert.KernelIdeal.Spec.mm1 x w := by
  funext i
  obtain ⟨r, h, rfl⟩ : ∃ (r : Fin 50000) (h : Fin 96), i = ix2 r h := ⟨i 0, i 1, eq_ix2 i⟩
  rw [Cert.LibDot2.hostDot_apply dot_S50000x64_S64x96_S50000x96_1_0_0_1_n_n rfl rfl
    Read.lhs_main_v4_0 Read.lhs_main_v4_1 Read.rhs_main_v4_0 Read.rhs_main_v4_1 x w r h]
  rfl

/-- The second layer's product on the host is Σₖ x (r, k) · w (k, h), k over the 96 hidden features. -/
theorem dot2_eq (x : FVec Ideal S50000x96 .f32) (w : FVec Ideal S96x64 .f32) :
    Host.dotGeneral dot_S50000x96_S96x64_S50000x64_1_0_0_1_n_n none x w = Cert.KernelIdeal.Spec.mm2 x w := by
  funext i
  obtain ⟨r, h, rfl⟩ : ∃ (r : Fin 50000) (h : Fin 64), i = ix2 r h := ⟨i 0, i 1, eq_ix2 i⟩
  rw [Cert.LibDot2.hostDot_apply dot_S50000x96_S96x64_S50000x64_1_0_0_1_n_n rfl rfl
    Read.lhs_main_v49_0 Read.lhs_main_v49_1 Read.rhs_main_v49_0 Read.rhs_main_v49_1 x w r h]
  rfl

end Cert.ReferenceIdeal.RefDot

end
-- ==== Proof.RefAct.lean ====
/-
  The reference's two activation steps, read entry by entry over the extended reals.

  After each layer the reference adds the aggregated messages and the self-loop term, adds the bias vector along every
  row, and applies the layer's activation: the maximum with a zero array after the first layer, and after the second the
  quotient  1 / (1 + e^(-·))  written out with arrays of ones. A bias vector broadcast first to one row and then to all
  50000 rows reads, at entry (r, h), the vector's entry h; an array made by broadcasting a scalar constant reads that
  constant everywhere. So each step is, entry by entry, the combine the kernel's launches compute, for any one-row array
  that holds the bias vector's entries.
-/
import proofs.«166711_j87333864997320_1_alg».proof.ReferenceIdeal
import proofs.«166711_j87333864997320_1_alg».proof.Proof.Gen.ReferenceIdeal
import proofs.«166711_j87333864997320_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefAct

open Idealize.ShloMosaic Idealize.ShloMosaic.ValueIdx
open Cert.ReferenceIdeal Cert.ReferenceIdeal.Facts₀

/-- The 96-entry bias vector broadcast to one row and then to 50000 rows reads, at any entry, the vector's entry of
    that entry's column. -/
theorem bias_rows_96 (b : FVec Ideal S96 .f32) (i : S50000x96.Idx) :
    broadcastInDim S50000x96 ![0, 1] bcast_S1x96_S50000x96_0_1 (broadcastInDim S1x96 ![1] bcast_S96_S1x96_1 b) i
      = b (ix1 (⟨(i 1).val, (i 1).isLt⟩ : Fin 96)) := by
  rw [broadcastInDim_apply _ bcast_S1x96_S50000x96_0_1 _ i (ix2 (0 : Fin 1) (⟨(i 1).val, (i 1).isLt⟩ : Fin 96)) (fun a => match a with
    | ⟨0, _⟩ => by show 0 = if (1 : Nat) = 1 then 0 else (i 0).val; rw [if_pos rfl]
    | ⟨1, _⟩ => by show (i 1).val = if (96 : Nat) = 1 then 0 else (i 1).val; rw [if_neg (by decide)])]
  exact broadcastInDim_apply _ bcast_S96_S1x96_1 b _ (ix1 (⟨(i 1).val, (i 1).isLt⟩ : Fin 96)) (fun a => match a with
    | ⟨0, _⟩ => by show (i 1).val = if (96 : Nat) = 1 then 0 else (i 1).val; rw [if_neg (by decide)])

/-- The 64-entry bias vector broadcast to one row and then to 50000 rows reads, at any entry, the vector's entry of
    that entry's column. -/
theorem bias_rows_64 (b : FVec Ideal S64 .f32) (i : S50000x64.Idx) :
    broadcastInDim S50000x64 ![0, 1] bcast_S1x64_S50000x64_0_1 (broadcastInDim S1x64 ![1] bcast_S64_S1x64_1 b) i
      = b (ix1 (⟨(i 1).val, (i 1).isLt⟩ : Fin 64)) := by
  rw [broadcastInDim_apply _ bcast_S1x64_S50000x64_0_1 _ i (ix2 (0 : Fin 1) (⟨(i 1).val, (i 1).isLt⟩ : Fin 64)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b _ (ix1 (⟨(i 1).val, (i 1).isLt⟩ : Fin 64)) (fun a => match a with
    | ⟨0, _⟩ => by show (i 1).val = if (64 : Nat) = 1 then 0 else (i 1).val; rw [if_neg (by decide)])

/-- A scalar constant broadcast to [50000, 96] reads the constant's value at every entry. -/
theorem scalar_rows_96 (w : BitVec 32) (i : S50000x96.Idx) :
    broadcastInDim S50000x96 ![] bcast_S_S50000x96 (constant (F := Ideal) S_ .f32 w) i = Ideal.ofBits .f32 w :=
  broadcastInDim_apply _ bcast_S_S50000x96 (constant (F := Ideal) S_ .f32 w) i (fun a => a.elim0) (fun a => a.elim0)

/-- A scalar constant broadcast to [50000, 64] reads the constant's value at every entry. -/
theorem scalar_rows_64 (w : BitVec 32) (i : S50000x64.Idx) :
    broadcastInDim S50000x64 ![] bcast_S_S50000x64 (constant (F := Ideal) S_ .f32 w) i = Ideal.ofBits .f32 w :=
  broadcastInDim_apply _ bcast_S_S50000x64 (constant (F := Ideal) S_ .f32 w) i (fun a => a.elim0) (fun a => a.elim0)

/-- The first layer's activation step is the first combine: max((a + s) + bias, 0) entry by entry. -/
theorem relu_eq (a s : FVec Ideal S50000x96 .f32) (b : FVec Ideal S96 .f32) (b' : FVec Ideal Cert.KernelIdeal.S1x96 .f32)
    (hb : ∀ j : Fin 96, b' (ix2 (0 : Fin 1) j) = b (ix1 j)) :
    maximumf (addf (addf a s) (broadcastInDim S50000x96 ![0, 1] bcast_S1x96_S50000x96_0_1 (broadcastInDim S1x96 ![1] bcast_S96_S1x96_1 b)))
        (broadcastInDim S50000x96 ![] bcast_S_S50000x96 (constant (F := Ideal) S_ .f32 0x00000000#32))
      = Cert.KernelIdeal.Spec.comb1 a s b' := by
  funext i
  rw [maximumf_apply, addf_apply, addf_apply, bias_rows_96, scalar_rows_96]
  show _ = max ((a i + s i) + b' (ix2 (0 : Fin 1) (⟨(i 1).val, (i 1).isLt⟩ : Fin 96))) (Ideal.ofBits .f32 0x00000000#32)
  rw [hb]

/-- The second layer's activation step is the second combine: 1 / (1 + e^(-((a + s) + bias))) is the logistic
    function of (a + s) + bias, entry by entry. -/
theorem sigm_eq (a s : FVec Ideal S50000x64 .f32) (b : FVec Ideal S64 .f32) (b' : FVec Ideal Cert.KernelIdeal.S1x64 .f32)
    (hb : ∀ j : Fin 64, b' (ix2 (0 : Fin 1) j) = b (ix1 j)) :
    Host.divf (broadcastInDim S50000x64 ![] bcast_S_S50000x64 (constant (F := Ideal) S_ .f32 0x3F800000#32))
        (addf (broadcastInDim S50000x64 ![] bcast_S_S50000x64 (constant (F := Ideal) S_ .f32 0x3F800000#32))
          (Host.exp (Host.negf (addf (addf a s) (broadcastInDim S50000x64 ![0, 1] bcast_S1x64_S50000x64_0_1 (broadcastInDim S1x64 ![1] bcast_S64_S1x64_1 b))))))
      = Cert.KernelIdeal.Spec.comb3 a s b' := by
  funext i
  show Ideal.div (broadcastInDim S50000x64 ![] bcast_S_S50000x64 (constant (F := Ideal) S_ .f32 0x3F800000#32) i)
      (broadcastInDim S50000x64 ![] bcast_S_S50000x64 (constant (F := Ideal) S_ .f32 0x3F800000#32) i
        + Ideal.exp (-((a i + s i) + broadcastInDim S50000x64 ![0, 1] bcast_S1x64_S50000x64_0_1 (broadcastInDim S1x64 ![1] bcast_S64_S1x64_1 b) i)))
    = Ideal.logistic ((a i + s i) + b' (ix2 (0 : Fin 1) (⟨(i 1).val, (i 1).isLt⟩ : Fin 64)))
  rw [bias_rows_64, scalar_rows_64, Ideal.ofBits_one_f32, hb]
  rfl

end Cert.ReferenceIdeal.RefAct

end
-- ==== Proof.RefSide.lean ====
/-
  The reference program's result is the same forward pass.

  The reference states the two-layer graph convolution as one straight line of host operations: the normalisation
  (computed once per layer, from the same edge list, hence twice the same value), each layer's feature transform as one
  matrix product over all 50000 rows, the gather / scale / scatter-add over the edges, the self-loop term, the bias, and
  the activation — max(·, 0) spelt with a broadcast zero, the logistic function spelt 1 / (1 + e^(-·)).  Over the
  extended reals its matrix products are the row-times-column sums, its activations the entrywise maximum and logistic
  function, and every other operation is literally the one the kernel program runs between its launches, so the
  reference's result term is the forward pass of its arguments.
-/
import proofs.«166711_j87333864997320_1_alg».proof.Proof.Gen.ReferenceIdeal.Run
import proofs.«166711_j87333864997320_1_alg».proof.Proof.KValue
import proofs.«166711_j87333864997320_1_alg».proof.Proof.RefDot
import proofs.«166711_j87333864997320_1_alg».proof.Proof.RefAct

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen

/-- The reference run's result term is the forward pass of the reference's arguments. -/
theorem res_eq (m : (ℓ : Loc nD τ sig) → Buf (Elt Ideal) ℓ) (c : Dev nD) :
    Value.res_main_v98 (F := Ideal) m c
      = Cert.KernelIdeal.Result.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Value.res_main_v98
  rw [RefDot.dot1_eq]
  rw [RefAct.relu_eq _ _ _ (Cert.KernelIdeal.Host.biasRow96 (m ((c.tc : Thread nD τ).loc main_arg3)))
    (Cert.KernelIdeal.Result.biasRow96_apply _)]
  rw [RefDot.dot2_eq]
  rw [RefAct.sigm_eq _ _ _ (Cert.KernelIdeal.Host.biasRow64 (m ((c.tc : Thread nD τ).loc main_arg5)))
    (Cert.KernelIdeal.Result.biasRow64_apply _)]
  rfl

/-- The reference's run with its result named as the forward pass. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98)
        = Cert.KernelIdeal.Result.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c).1.trans (res_eq m c), (h c).2⟩)
    (Value.run (F := Ideal) m ρ)

end Cert.ReferenceIdeal.RefValue

end
-- ==== Proof.lean ====
/-
  The certificate of a two-layer graph convolution with self loops,

      out = logistic( Â · max(Â · x·W1 + b1, 0) · W2 + b2 ),    Â = D^(-1/2) (A + I) D^(-1/2),

  whose kernel program runs the two feature transforms x·W and the two "add, add the bias row, activate" steps as
  launches over ten blocks of 5000 node rows and leaves the gather / scatter-add over the 800000 edges to host
  operations, against a reference that states every step as a host operation on whole arrays.

  Frames: the kernel program's run (bit level and idealized) terminates without a fault and keeps its argument arrays, by
  the generated frame over its seven segments; the reference's frame is its run with the result dropped.  The idealization
  rewrote nothing, so there is nothing to preserve.  Equivalence over the extended reals: the idealized kernel's result
  array is the forward pass of its arguments (each launch's output is the whole-array function its blocks tile; a matrix
  product taken ten row blocks at a time is the product of the whole array, entry by entry the same sum over the
  contracted axis), the reference's result is the same forward pass (its matrix products are those sums, its maximum
  against a broadcast zero and its 1 / (1 + e^(-·)) are the kernel's activations), and the arguments agree.  No law of
  arithmetic beyond reading each operation at an index is needed, so finiteness of the inputs is never used.
-/
import proofs.«166711_j87333864997320_1_alg».proof.Defs
import proofs.«166711_j87333864997320_1_alg».proof.Proof.Gen.Kernel
import proofs.«166711_j87333864997320_1_alg».proof.Proof.Gen.Kernel.Frame
import proofs.«166711_j87333864997320_1_alg».proof.Proof.Gen.KernelIdeal
import proofs.«166711_j87333864997320_1_alg».proof.Proof.Gen.KernelIdeal.Frame
import proofs.«166711_j87333864997320_1_alg».proof.Proof.Gen.ReferenceIdeal
import proofs.«166711_j87333864997320_1_alg».proof.Proof.Gen.ReferenceIdeal.Run
import proofs.«166711_j87333864997320_1_alg».proof.Proof.Gen.Pre_finite_inputs
import proofs.«166711_j87333864997320_1_alg».proof.Proof.KValue
import proofs.«166711_j87333864997320_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the forward pass of their arguments in the result array, and the arguments agree. -/
theorem algebraic : Cert.algebraic_KernelIdeal_ReferenceIdeal := by
  intro m ρ m' ρ' _ hagree
  refine ⟨fun c => Cert.KernelIdeal.Result.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
